-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x14x14 : Shape := ⟨4, ![128, 512, 14, 14]⟩
abbrev S512x64 : Shape := ⟨2, ![512, 64]⟩
abbrev S1x64 : Shape := ⟨2, ![1, 64]⟩
abbrev S64x512 : Shape := ⟨2, ![64, 512]⟩
abbrev S1x512 : Shape := ⟨2, ![1, 512]⟩
abbrev S_ : Shape := ⟨0, ![]⟩

class Facts : Prop where
  bcast_S_S128x512x14x14 : S_.BroadcastsInDim S128x512x14x14 (![] : Fin 0 → Fin S128x512x14x14.rank)
  reducesTo_S128x512x14x14_S_d0_1_2_3 : S128x512x14x14.ReducesTo [0, 1, 2, 3] S_
  h_S_ : 0 < S_.numel
  bcast_S_S512x64 : S_.BroadcastsInDim S512x64 (![] : Fin 0 → Fin S512x64.rank)
  reducesTo_S512x64_S_d0_1 : S512x64.ReducesTo [0, 1] S_
  bcast_S_S1x64 : S_.BroadcastsInDim S1x64 (![] : Fin 0 → Fin S1x64.rank)
  reducesTo_S1x64_S_d0_1 : S1x64.ReducesTo [0, 1] S_
  bcast_S_S64x512 : S_.BroadcastsInDim S64x512 (![] : Fin 0 → Fin S64x512.rank)
  reducesTo_S64x512_S_d0_1 : S64x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  main_v23

def fn {F : FTy → Type} [FloatOps F] (main_arg0 : FVec F S128x512x14x14 .f32) (main_arg1 : FVec F S512x64 .f32) (main_arg2 : FVec F S1x64 .f32) (main_arg3 : FVec F S64x512 .f32) (main_arg4 : FVec F S1x512 .f32) : IVec S_ 1 :=
  let main_v0 : FVec F S128x512x14x14 .f32 := Host.absf main_arg0
  let main_cst : FVec F S_ .f32 := constant S_ .f32 0x7F800000#32
  let main_v1 : FVec F S128x512x14x14 .f32 := broadcastInDim S128x512x14x14 ![] bcast_S_S128x512x14x14 main_cst
  let main_v2 : IVec S128x512x14x14 1 := cmpf .olt main_v0 main_v1
  let main_c : IVec S_ 1 := constantI S_ 1 1#1
  let main_v3 : IVec S_ 1 := (fun x v => Host.reduce IntOp.andi x v reducesTo_S128x512x14x14_S_d0_1_2_3 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_v13 main_v16
-- ==== Kernel.lean ====
abbrev S128x512x14x14 : Shape := ⟨4, ![128, 512, 14, 14]⟩
abbrev S512x64 : Shape := ⟨2, ![512, 64]⟩
abbrev S1x64 : Shape := ⟨2, ![1, 64]⟩
abbrev S64x512 : Shape := ⟨2, ![64, 512]⟩
abbrev S1x512 : Shape := ⟨2, ![1, 512]⟩
abbrev S128x512x196 : Shape := ⟨3, ![128, 512, 196]⟩
abbrev S8x512x196 : Shape := ⟨3, ![8, 512, 196]⟩
abbrev S8x512 : Shape := ⟨2, ![8, 512]⟩
abbrev S8x64 : Shape := ⟨2, ![8, 64]⟩
abbrev S8x512x1 : Shape := ⟨3, ![8, 512, 1]⟩

abbrev nBuf : Space → Nat
  | .hbm => 8
  | .vmem => 8
  | .smem => 0
  | _ => 0

abbrev bufTy : (tb : Table) → Fin (tcTables nBuf tb) → BufTy
  | .hbm, ⟨0, _⟩ => ⟨S128x512x14x14, .f32⟩
  | .hbm, ⟨1, _⟩ => ⟨S512x64, .f32⟩
  | .hbm, ⟨2, _⟩ => ⟨S1x64, .f32⟩
  | .hbm, ⟨3, _⟩ => ⟨S64x512, .f32⟩
  | .hbm, ⟨4, _⟩ => ⟨S1x512, .f32⟩
  | .hbm, ⟨5, _⟩ => ⟨S128x512x196, .f32⟩
  | .hbm, ⟨6, _⟩ => ⟨S128x512x196, .f32⟩
  | .hbm, ⟨7, _⟩ => ⟨S128x512x14x14, .f32⟩
  | .local _ .vmem, ⟨0, _⟩ => ⟨S8x512x196, .f32⟩
  | .local _ .vmem, ⟨1, _⟩ => ⟨S8x512x196, .f32⟩
  | .local _ .vmem, ⟨2, _⟩ => ⟨S512x64, .f32⟩
  | .local _ .vmem, ⟨3, _⟩ => ⟨S1x64, .f32⟩
  | .local _ .vmem, ⟨4, _⟩ => ⟨S64x512, .f32⟩
  | .local _ .vmem, ⟨5, _⟩ => ⟨S1x512, .f32⟩
  | .local _ .vmem, ⟨6, _⟩ => ⟨S8x512x196, .f32⟩
  | .local _ .vmem, ⟨7, _⟩ => ⟨S8x512x196, .f32⟩
  | _, _ => ⟨S128x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x512x196 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x512x14x14_S128x512x196 : S128x512x14x14.ShapeCasts S128x512x196
  shapeCasts_S128x512x196_S128x512x14x14 : S128x512x196.ShapeCasts S128x512x14x14
  inb_S8x512x196_S8x512x196_0_0_0 : ∀ a, (![0, 0, 0] : Fin 3 → Nat) a + S8x512x196.size a ≤ S8x512x196.size a
  h_S8x512x196 : 0 < S8x512x196.numel
  shapeCasts_S8x512x196_S8x512x196 : S8x512x196.ShapeCasts S8x512x196
  reduces_S8x512x196_S8x512 : S8x512x196.Reduces [2] S8x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  broadcasts_S1x64_S8x64 : S1x64.Broadcasts S8x64
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  broadcasts_S1x512_S8x512 : S1x512.Broadcasts S8x512
  shapeCasts_S8x512_S8x512x1 : S8x512.ShapeCasts S8x512x1
  broadcasts_S8x512x1_S8x512x196 : S8x512x1.Broadcasts S8x512x196
  dot_S8x512_S512x64_S8x64_1_0_0_1_n_n_wf : DotDims.WF S8x512 S512x64 S8x64 [1] [0] [0] [1] [] []
  dot_S8x64_S64x512_S8x512_1_0_0_1_n_n_wf : DotDims.WF S8x64 S64x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x196.size a ≤ S128x512x196.size a
  hwx0_0 : ∀ i : grid0.Coords, EltTy.bits .f32 = 32 ∨ (Rect.block (s := S128x512x196) S8x512x196.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512x196.size a ≤ S128x512x196.size a
  hwx0_5 : ∀ i : grid0.Coords, EltTy.bits .f32 = 32 ∨ (Rect.block (s := S128x512x196) S8x512x196.size (cc0_transform_5 i) (hinb0_5 i)).WholeWords (EltTy.packing .f32)

variable [Facts₀]

def dot_S8x512_S512x64_S8x64_1_0_0_1_n_n : DotDims S8x512 S512x64 S8x64 where
  lhsContracting := [1]
  rhsContracting := [0]
  lhsNonContracting := [0]
  rhsNonContracting := [1]
  lhsBatch := []
  rhsBatch := []
  wf := dot_S8x512_S512x64_S8x64_1_0_0_1_n_n_wf
def dot_S8x64_S64x512_S8x512_1_0_0_1_n_n : DotDims S8x64 S64x512 S8x512 where
  lhsContracting := [1]
  rhsContracting := [0]
  lhsNonContracting := [0]
  rhsNonContracting := [1]
  lhsBatch := []
  rhsBatch := []
  wf := dot_S8x64_S64x512_S8x512_1_0_0_1_n_n_wf

abbrev win0_0 : Pipeline.Window sig grid0 :=
  Pipeline.Window.ofSpec (Memref.whole main_call0_v0) S8x512x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S8x512x196.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x512x14x14 : Shape := ⟨4, ![128, 512, 14, 14]⟩
abbrev S512x64 : Shape := ⟨2, ![512, 64]⟩
abbrev S1x64 : Shape := ⟨2, ![1, 64]⟩
abbrev S64x512 : Shape := ⟨2, ![64, 512]⟩
abbrev S1x512 : Shape := ⟨2, ![1, 512]⟩
abbrev S128x14x14x512 : Shape := ⟨4, ![128, 14, 14, 512]⟩
abbrev S128x196x512 : Shape := ⟨3, ![128, 196, 512]⟩
abbrev S5x196x512 : Shape := ⟨3, ![5, 196, 512]⟩
abbrev S5x512 : Shape := ⟨2, ![5, 512]⟩
abbrev S5x64 : Shape := ⟨2, ![5, 64]⟩
abbrev S5x1x512 : Shape := ⟨3, ![5, 1, 512]⟩

abbrev nBuf : Space → Nat
  | .hbm => 10
  | .vmem => 8
  | .smem => 0
  | _ => 0

abbrev bufTy : (tb : Table) → Fin (tcTables nBuf tb) → BufTy
  | .hbm, ⟨0, _⟩ => ⟨S128x512x14x14, .f32⟩
  | .hbm, ⟨1, _⟩ => ⟨S512x64, .f32⟩
  | .hbm, ⟨2, _⟩ => ⟨S1x64, .f32⟩
  | .hbm, ⟨3, _⟩ => ⟨S64x512, .f32⟩
  | .hbm, ⟨4, _⟩ => ⟨S1x512, .f32⟩
  | .hbm, ⟨5, _⟩ => ⟨S128x14x14x512, .f32⟩
  | .hbm, ⟨6, _⟩ => ⟨S128x196x512, .f32⟩
  | .hbm, ⟨7, _⟩ => ⟨S128x196x512, .f32⟩
  | .hbm, ⟨8, _⟩ => ⟨S128x14x14x512, .f32⟩
  | .hbm, ⟨9, _⟩ => ⟨S128x512x14x14, .f32⟩
  | .local _ .vmem, ⟨0, _⟩ => ⟨S5x196x512, .f32⟩
  | .local _ .vmem, ⟨1, _⟩ => ⟨S5x196x512, .f32⟩
  | .local _ .vmem, ⟨2, _⟩ => ⟨S512x64, .f32⟩
  | .local _ .vmem, ⟨3, _⟩ => ⟨S1x64, .f32⟩
  | .local _ .vmem, ⟨4, _⟩ => ⟨S64x512, .f32⟩
  | .local _ .vmem, ⟨5, _⟩ => ⟨S1x512, .f32⟩
  | .local _ .vmem, ⟨6, _⟩ => ⟨S5x196x512, .f32⟩
  | .local _ .vmem, ⟨7, _⟩ => ⟨S5x196x512, .f32⟩
  | _, _ => ⟨S128x512x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![26], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x196x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5x196x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x512x14x14_S128x14x14x512_0_2_3_1 : S128x512x14x14.Transposes [0, 2, 3, 1] S128x14x14x512
  shapeCasts_S128x14x14x512_S128x196x512 : S128x14x14x512.ShapeCasts S128x196x512
  shapeCasts_S128x196x512_S128x14x14x512 : S128x196x512.ShapeCasts S128x14x14x512
  transposes_S128x14x14x512_S128x512x14x14_0_3_1_2 : S128x14x14x512.Transposes [0, 3, 1, 2] S128x512x14x14
  inb_S5x196x512_S5x196x512_0_0_0 : ∀ a, (![0, 0, 0] : Fin 3 → Nat) a + S5x196x512.size a ≤ S5x196x512.size a
  h_S5x196x512 : 0 < S5x196x512.numel
  shapeCasts_S5x196x512_S5x196x512 : S5x196x512.ShapeCasts S5x196x512
  reduces_S5x196x512_S5x512 : S5x196x512.Reduces [1] S5x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  broadcasts_S1x64_S5x64 : S1x64.Broadcasts S5x64
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  broadcasts_S1x512_S5x512 : S1x512.Broadcasts S5x512
  shapeCasts_S5x512_S5x1x512 : S5x512.ShapeCasts S5x1x512
  broadcasts_S5x1x512_S5x196x512 : S5x1x512.Broadcasts S5x196x512
  dot_S5x512_S512x64_S5x64_1_0_0_1_n_n_wf : DotDims.WF S5x512 S512x64 S5x64 [1] [0] [0] [1] [] []
  dot_S5x64_S64x512_S5x512_1_0_0_1_n_n_wf : DotDims.WF S5x64 S64x512 S5x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S5x196x512.size a < S128x196x512.size a
  hwx0_0 : ∀ i : grid0.Coords, EltTy.bits .f32 = 32 ∨ (Rect.unit (s := S128x196x512) (fun a => cc0_transform_0 i a * S5x196x512.size a) (fun a => (Pipeline.Clip.of (cc0_transform_0 i a) (S5x196x512.size a) (S128x196x512.size a)).extent (S5x196x512.size a)) fun a => Pipeline.Clip.inb (Pipeline.Clip.ok_of (hstart0_0 i a))).WholeWords (EltTy.packing .f32)
  hwxs0_0 : ∀ i : grid0.Coords, EltTy.bits .f32 = 32 ∨ (Rect.unit (s := S5x196x512) (fun _ => 0) (fun a => (Pipeline.Clip.of (cc0_transform_0 i a) (S5x196x512.size a) (S128x196x512.size a)).extent (S5x196x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S5x196x512.size a < S128x196x512.size a
  hwx0_5 : ∀ i : grid0.Coords, EltTy.bits .f32 = 32 ∨ (Rect.unit (s := S128x196x512) (fun a => cc0_transform_5 i a * S5x196x512.size a) (fun a => (Pipeline.Clip.of (cc0_transform_5 i a) (S5x196x512.size a) (S128x196x512.size a)).extent (S5x196x512.size a)) fun a => Pipeline.Clip.inb (Pipeline.Clip.ok_of (hstart0_5 i a))).WholeWords (EltTy.packing .f32)
  hwxs0_5 : ∀ i : grid0.Coords, EltTy.bits .f32 = 32 ∨ (Rect.unit (s := S5x196x512) (fun _ => 0) (fun a => (Pipeline.Clip.of (cc0_transform_5 i a) (S5x196x512.size a) (S128x196x512.size a)).extent (S5x196x512.size a)) fun a => (Nat.zero_add _).trans_le (Pipeline.Clip.extent_le (Pipeline.Clip.ok_of (hstart0_5 i a)))).WholeWords (EltTy.packing .f32)

variable [Facts₀]

def dot_S5x512_S512x64_S5x64_1_0_0_1_n_n : DotDims S5x512 S512x64 S5x64 where
  lhsContracting := [1]
  rhsContracting := [0]
  lhsNonContracting := [0]
  rhsNonContracting := [1]
  lhsBatch := []
  rhsBatch := []
  wf := dot_S5x512_S512x64_S5x64_1_0_0_1_n_n_wf
def dot_S5x64_S64x512_S5x512_1_0_0_1_n_n : DotDims S5x64 S64x512 S5x512 where
  lhsContracting := [1]
  rhsContracting := [0]
  lhsNonContracting := [0]
  rhsNonContracting := [1]
  lhsBatch := []
  rhsBatch := []
  wf := dot_S5x64_S64x512_S5x512_1_0_0_1_n_n_wf

abbrev win0_0 : Pipeline.Window sig grid0 :=
  Pipeline.Window.ofSpecClip (Memref.whole main_call0_v1) S5x196x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_call0_v2) S5x196x512.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  The squeeze-and-excite gate, as one function of a batch row.

  For one batch element, write s c k for the input at channel c and flattened spatial position k (196 = 14 * 14
  positions).  The channel's pooled value is the sum of its 196 entries times the single-precision word both programs
  carry for 1/196 (the same word on both sides, so it is never evaluated); the hidden layer is the rectified affine map
  of the pooled vector (512 -> 64), and the gate of channel c is the logistic function of the second affine map
  (64 -> 512) of the hidden vector.  The result array is the input scaled, entry by entry, by the gate of its batch
  element and channel.

  Both programs compute exactly this, one with channels ahead of positions and one with positions ahead of channels;
  every sum here runs over the same index in the same order as theirs, so no law of the extended reals beyond the
  re-indexing of a finite sum is needed to join them.
-/
import Idealize.ShloMosaic.PureOps.Ideal
import Idealize.ShloMosaic.Lib.ValueIdx

noncomputable section

namespace SE

open Idealize.ShloMosaic Idealize.ShloMosaic.ValueIdx

abbrev SX : Shape := ⟨4, ![128, 512, 14, 14]⟩
abbrev SW1 : Shape := ⟨2, ![512, 64]⟩
abbrev SB1 : Shape := ⟨2, ![1, 64]⟩
abbrev SW2 : Shape := ⟨2, ![64, 512]⟩
abbrev SB2 : Shape := ⟨2, ![1, 512]⟩

/-- The pooled value of channel `c`: the sum of the channel's 196 entries, times the shared word for 1/196. -/
def pooled (s : Fin 512 → Fin 196 → EReal) (c : Fin 512) : EReal :=
  (∑ k : Fin 196, s c k) * Ideal.ofBits .f32 0x3BA72F05#32

/-- Hidden unit `h`: the first affine map of the pooled vector, rectified at the zero word. -/
def hidden (w1 : FVec Ideal SW1 .f32) (b1 : FVec Ideal SB1 .f32) (p : Fin 512 → EReal) (h : Fin 64) : EReal :=
  max ((∑ c : Fin 512, p c * w1 (ix2 c h)) + b1 (ix2 (0 : Fin 1) h)) (Ideal.ofBits .f32 0x00000000#32)

/-- The gate of channel `c`: the logistic function of the second affine map of the hidden vector. -/
def gate (w1 : FVec Ideal SW1 .f32) (b1 : FVec Ideal SB1 .f32) (w2 : FVec Ideal SW2 .f32) (b2 : FVec Ideal SB2 .f32)
    (s : Fin 512 → Fin 196 → EReal) (c : Fin 512) : EReal :=
  FloatOps.logistic (F := Ideal) (φ := .f32)
    ((∑ h : Fin 64, hidden w1 b1 (pooled s) h * w2 (ix2 h c)) + b2 (ix2 (0 : Fin 1) c))

/-- Row and column of flattened spatial position `k`. -/
def row (k : Fin 196) : Fin 14 := ⟨k.val / 14, by have := k.isLt; omega⟩
def col (k : Fin 196) : Fin 14 := ⟨k.val % 14, Nat.mod_lt _ (by decide)⟩

/-- Batch element `b` of the input as channels by flattened positions. -/
def rowOf (x : FVec Ideal SX .f32) (b : Fin 128) : Fin 512 → Fin 196 → EReal :=
  fun c k => x (ix4 b c (row k) (col k))

/-- The result at batch element `b`, channel `c`, row `h`, column `w`. -/
def Gat (w1 : FVec Ideal SW1 .f32) (b1 : FVec Ideal SB1 .f32) (w2 : FVec Ideal SW2 .f32) (b2 : FVec Ideal SB2 .f32)
    (x : FVec Ideal SX .f32) (b : Fin 128) (c : Fin 512) (h w : Fin 14) : EReal :=
  gate w1 b1 w2 b2 (rowOf x b) c * x (ix4 b c h w)

/-- The result array: the input scaled by the gate of its batch element and channel. -/
def G (x : FVec Ideal SX .f32) (w1 : FVec Ideal SW1 .f32) (b1 : FVec Ideal SB1 .f32) (w2 : FVec Ideal SW2 .f32)
    (b2 : FVec Ideal SB2 .f32) : FVec Ideal SX .f32 :=
  fun i => Gat w1 b1 w2 b2 x (i 0) (i 1) (i 2) (i 3)

theorem G_apply (x : FVec Ideal SX .f32) (w1 : FVec Ideal SW1 .f32) (b1 : FVec Ideal SB1 .f32) (w2 : FVec Ideal SW2 .f32)
    (b2 : FVec Ideal SB2 .f32) (b : Fin 128) (c : Fin 512) (h w : Fin 14) :
    G x w1 b1 w2 b2 (ix4 b c h w) = Gat w1 b1 w2 b2 x b c h w := rfl

/-- A flattened position is its row times 14 plus its column. -/
theorem row_col (k : Fin 196) : (row k).val * 14 + (col k).val = k.val := by
  show k.val / 14 * 14 + k.val % 14 = k.val
  omega

/-- The flattened position of row `h` and column `w`. -/
def flat (h w : Fin 14) : Fin 196 := ⟨h.val * 14 + w.val, by have := h.isLt; have := w.isLt; omega⟩

theorem row_flat (h w : Fin 14) : row (flat h w) = h := Fin.ext (by
  show (h.val * 14 + w.val) / 14 = h.val
  have := w.isLt; omega)
theorem col_flat (h w : Fin 14) : col (flat h w) = w := Fin.ext (by
  show (h.val * 14 + w.val) % 14 = w.val
  have := w.isLt; omega)

end SE

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KernelPayload.lean ====
/-
  The kernel body's stored value, read at an index.

  On a block of 8 batch elements by 512 channels by 196 positions the body sums each channel over its positions,
  scales by the word for 1/196, applies the two affine layers (rectified, then logistic) across the channels of one
  batch element, and multiplies every entry by the gate of its batch element and channel.  Read at (b, c, k) the stored
  value is the gate of the block's batch element b at channel c times the entry there.
-/
import proofs.«170886_g2000500431775840_pallasbulk_638_2_alg».proof.Proof.Gen.KernelIdeal.Skeleton
import proofs.«170886_g2000500431775840_pallasbulk_638_2_alg».proof.Proof.Spec
import proofs.«170886_g2000500431775840_pallasbulk_638_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KPay

open Idealize.ShloMosaic Idealize.ShloMosaic.ValueIdx Cert.KernelIdeal Cert.KernelIdeal.Gen

/-- The sum along the last axis of a rank-3 array, read at (b, c): the sum over the last coordinate. -/
theorem laneSum {n0 n1 n2 : Nat} (src : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = 0x00000000#32) (b : Fin n0) (c : Fin n1) :
    multiReduction (F := Ideal) .add [2] ⟨2, ![n0, n1]⟩ src 0x00000000#32 h hφ hacc (ix2 b c)
      = ∑ k : Fin n2, src (ix3 b c k) :=
  (Ideal.multiReduction_add_single src 0x00000000#32 h hφ hacc (ix2 b c)).trans
    (Finset.sum_congr rfl fun k _ => congrArg src (funext fun a => Fin.ext (by
      match a with
      | ⟨0, _⟩ => rfl
      | ⟨1, _⟩ => rfl
      | ⟨2, _⟩ => rfl)))

/-- A matrix product accumulated into the zero array, read at (p, q): the plain sum over the contracted index. -/
theorem matmulZero {R K C : Nat} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ .f32) (r : FVec Ideal ⟨2, ![K, C]⟩ .f32) (p : Fin R) (q : Fin C) :
    matmul d none l r (constant (F := Ideal) ⟨2, ![R, C]⟩ .f32 0x00000000#32) (ix2 p q)
      = ∑ k : Fin K, l (ix2 p k) * r (ix2 k q) :=
  (Ideal.matmul_constant_zero_apply d none l r (ix2 p q)).trans (PlainDot.sum_eq d hlb hln hlc hrb hrn hrc l r p q)

/-- An [a, b] array viewed as [a, b, 1] reads, at (i, j, u), the operand at (i, j). -/
theorem colCast {α : Type} {a b : Nat} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array spread along its last axis to [a, b, n] reads, at (i, j, k), the operand at (i, j, 0). -/
theorem colSpread {α : Type} {a b n : Nat} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The stored value at batch element `b`, channel `c`, position `k` of the block. -/
theorem pay_apply (x0 : FVec Ideal S8x512x196 .f32) (x1 : FVec Ideal S512x64 .f32) (x2 : FVec Ideal S1x64 .f32)
    (x3 : FVec Ideal S64x512 .f32) (x4 : FVec Ideal S1x512 .f32) (b : Fin 8) (c : Fin 512) (k : Fin 196) :
    k0_pay1 (F := Ideal) x0 x1 x2 x3 x4 (ix3 b c k)
      = SE.gate x1 x2 x3 x4 (fun c' k' => x0 (ix3 b c' k')) c * x0 (ix3 b c k) := by
  unfold k0_pay1
  dsimp only
  rw [shapeCast_self]
  -- the last product, then the gate spread along the positions and read through the unit-axis view
  refine (mulf_apply _ _ _).trans (congrArg (· * x0 (ix3 b c k)) ?_)
  refine (colSpread _ _ b c k).trans ?_
  refine (colCast _ _ b c 0).trans ?_
  unfold SE.gate
  show FloatOps.logistic (F := Ideal) (φ := .f32) _ = _
  refine congrArg _ ?_
  -- the second affine layer
  refine (addf_apply _ _ _).trans ?_
  refine congrArg₂ (· + ·) ?_ (broadcastTo_1b_ab_apply x4 _ b c)
  refine (matmulZero _ rfl rfl rfl rfl rfl rfl _ x3 b c).trans
    (Finset.sum_congr rfl fun h _ => congrArg (· * x3 (ix2 h c)) ?_)
  -- the first affine layer, rectified
  unfold SE.hidden
  refine (maximumf_apply _ _ _).trans (congrArg₂ max ?_ rfl)
  refine (addf_apply _ _ _).trans (congrArg₂ (· + ·) ?_ (broadcastTo_1b_ab_apply x2 _ b h))
  refine (matmulZero _ rfl rfl rfl rfl rfl rfl _ x1 b h).trans
    (Finset.sum_congr rfl fun c' _ => congrArg (· * x1 (ix2 c' h)) ?_)
  -- the pooled value
  unfold SE.pooled
  exact (mulf_apply _ _ _).trans (congrArg₂ (· * ·) (laneSum x0 _ _ _ b c') rfl)

end Cert.KernelIdeal.KPay

end
-- ==== Proof.KernelValue.lean ====
/-
  The kernel program's result array.

  The program reshapes the input to batch by channel by 196 flattened positions, runs the body on 16 blocks of 8 batch
  elements that tile the array, and reshapes the result back.  Each block written back is its block of one whole-array
  function (the gate of the entry's batch element and channel times the entry), so the array after the last write-back
  is that function, and reshaped it is the specification.
-/
import proofs.«170886_g2000500431775840_pallasbulk_638_2_alg».proof.Proof.Gen.KernelIdeal.Frame
import proofs.«170886_g2000500431775840_pallasbulk_638_2_alg».proof.Proof.KernelPayload
import Idealize.ShloMosaic.Lib.StableHlo.Run

noncomputable section

namespace Cert.KernelIdeal.KVal

open Idealize.ShloMosaic Idealize.ShloMosaic.TcCoe Idealize.ShloMosaic.ValueIdx Idealize.SL.Sem
open Cert.KernelIdeal Cert.KernelIdeal.Gen

/-! ## The whole-array function -/

/-- The gate of batch element `b` and channel `ch` of the array `X`, times its entry at position `k`. -/
def scaledAt (X : FVec Ideal S128x512x196 .f32) (w1 : FVec Ideal S512x64 .f32) (b1 : FVec Ideal S1x64 .f32)
    (w2 : FVec Ideal S64x512 .f32) (b2 : FVec Ideal S1x512 .f32) (b : Fin 128) (ch : Fin 512) (k : Fin 196) : EReal :=
  SE.gate w1 b1 w2 b2 (fun c' k' => X (ix3 b c' k')) ch * X (ix3 b ch k)

/-- The same as one function of the index. -/
def scaled (X : FVec Ideal S128x512x196 .f32) (w1 : FVec Ideal S512x64 .f32) (b1 : FVec Ideal S1x64 .f32)
    (w2 : FVec Ideal S64x512 .f32) (b2 : FVec Ideal S1x512 .f32) : FVec Ideal S128x512x196 .f32 :=
  fun i => scaledAt X w1 b1 w2 b2 (i 0) (i 1) (i 2)

theorem scaled_apply (X : FVec Ideal S128x512x196 .f32) (w1 : FVec Ideal S512x64 .f32) (b1 : FVec Ideal S1x64 .f32)
    (w2 : FVec Ideal S64x512 .f32) (b2 : FVec Ideal S1x512 .f32) (b : Fin 128) (ch : Fin 512) (k : Fin 196) :
    scaled X w1 b1 w2 b2 (ix3 b ch k) = scaledAt X w1 b1 w2 b2 b ch k := rfl

/-- A block of 8 batch elements whose batch element `b` is batch element `B` of the array stores, at `(b, ch, k)`, the
    whole-array function at `(B, ch, k)`. -/
theorem block_value (x0 : FVec Ideal S8x512x196 .f32) (x1 : FVec Ideal S512x64 .f32) (x2 : FVec Ideal S1x64 .f32)
    (x3 : FVec Ideal S64x512 .f32) (x4 : FVec Ideal S1x512 .f32) (X : FVec Ideal S128x512x196 .f32)
    (b : Fin 8) (B : Fin 128) (h0 : ∀ (ch : Fin 512) (k : Fin 196), x0 (ix3 b ch k) = X (ix3 B ch k))
    (ch : Fin 512) (k : Fin 196) :
    k0_pay1 (F := Ideal) x0 x1 x2 x3 x4 (ix3 b ch k) = scaledAt X x1 x2 x3 x4 B ch k := by
  refine (KPay.pay_apply x0 x1 x2 x3 x4 b ch k).trans ?_
  unfold scaledAt
  rw [h0 ch k, show (fun c' k' => x0 (ix3 b c' k')) = fun c' k' => X (ix3 B c' k') from
    funext fun c' => funext fun k' => h0 c' k']

section Arrays

variable (m : (ℓ : Loc nD τ sig) → Buf (Elt Ideal) ℓ)

/-! ## The arrays as the region finds them -/

/-- The region's first array is the input, reshaped. -/
theorem entry_eq (c : Dev nD) :
    (V m c main_call0_v0 : FVec Ideal S128x512x196 .f32)
      = shapeCast S128x512x196 (m ((c : Thread nD τ).loc main_arg0) : FVec Ideal S128x512x14x14 .f32)
          shapeCasts_S128x512x14x14_S128x512x196 := by
  show StableHlo.after hostOps0 (fun b => m (c, b)) (Proc.devRef .tc main_call0_v0) = _
  after_results
  rfl

/-- Read at batch element `b`, channel `ch`, flattened position `k`, it is the input at row and column of `k`. -/
theorem entry_apply (c : Dev nD) (b : Fin 128) (ch : Fin 512) (k : Fin 196) :
    (V m c main_call0_v0 : FVec Ideal S128x512x196 .f32) (ix3 b ch k)
      = (m ((c : Thread nD τ).loc main_arg0) : FVec Ideal S128x512x14x14 .f32) (ix4 b ch (SE.row k) (SE.col k)) := by
  rw [entry_eq]
  refine shapeCast_apply (s := S128x512x14x14) (t := S128x512x196) _ _ _ _ ?_
  rw [Shape.rowMajor_val_three, Shape.rowMajor_val_four]
  show ((b.val * 512 + ch.val) * 14 + (SE.row k).val) * 14 + (SE.col k).val = (b.val * 512 + ch.val) * 196 + k.val
  have := SE.row_col k
  omega

end Arrays

section Blocks

variable (m : (ℓ : Loc nD τ sig) → Buf (Elt Ideal) ℓ)

/-! ## The blocks -/

theorem zero3 : (![0, 0, 0] : Fin 3 → Nat) = fun _ => 0 := funext fun a => by fin_cases a <;> rfl
theorem zero2 : (![0, 0] : Fin 2 → Nat) = fun _ => 0 := funext fun a => by fin_cases a <;> rfl

/-- The block indices, decided once over the 16 points: the input's and the result's blocks move along the batch axis
    with the point, and the four parameter windows stay on their whole arrays. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem point_lt (t : Fin cfg0.N) : t.val < 16 := Nat.lt_of_lt_of_eq t.isLt N_0

/-- The batch element of the array that batch element `b` of point `t`'s block is. -/
def batchOf (t : Fin cfg0.N) (b : Fin 8) : Fin 128 := ⟨t.val * 8 + b.val, by have := point_lt t; have := b.isLt; omega⟩

/-- Where an index of point `t`'s input block sits in the array. -/
theorem emb_in (t : Fin cfg0.N) (b : Fin 8) (ch : Fin 512) (k : Fin 196) :
    ((cfg0.win 0).blk t).view.emb (ix3 b ch k : S8x512x196.Idx) = (ix3 (batchOf t b) ch k : S128x512x196.Idx) := by
  obtain ⟨e0, e1, e2, -⟩ := idx_facts t
  funext a; apply Fin.ext
  match a with
  | ⟨0, _⟩ => show win0_0.index t (0 : Fin 3) * 8 + 1 * b.val = t.val * 8 + b.val; rw [e0]; omega
  | ⟨1, _⟩ => show win0_0.index t (1 : Fin 3) * 512 + 1 * ch.val = ch.val; rw [e1]; omega
  | ⟨2, _⟩ => show win0_0.index t (2 : Fin 3) * 196 + 1 * k.val = k.val; rw [e2]; omega

/-- Where an index of point `t`'s result block sits in the array. -/
theorem emb_out (t : Fin cfg0.N) (b : Fin 8) (ch : Fin 512) (k : Fin 196) :
    ((cfg0.win 5).blk t).view.emb (ix3 b ch k : S8x512x196.Idx) = (ix3 (batchOf t b) ch k : S128x512x196.Idx) := by
  obtain ⟨-, -, -, -, -, -, -, -, -, -, -, e0, e1, e2⟩ := idx_facts t
  funext a; apply Fin.ext
  match a with
  | ⟨0, _⟩ => show win0_5.index t (0 : Fin 3) * 8 + 1 * b.val = t.val * 8 + b.val; rw [e0]; omega
  | ⟨1, _⟩ => show win0_5.index t (1 : Fin 3) * 512 + 1 * ch.val = ch.val; rw [e1]; omega
  | ⟨2, _⟩ => show win0_5.index t (2 : Fin 3) * 196 + 1 * k.val = k.val; rw [e2]; omega

/-- The input block at point `t` reads the region's first array at the block's batch elements. -/
theorem in_block_apply (c : Dev nD) (t : Fin cfg0.N) (b : Fin 8) (ch : Fin 512) (k : Fin 196) :
    (iblk m c 0 t : FVec Ideal S8x512x196 .f32) (ix3 b ch k)
      = (V m c main_call0_v0 : FVec Ideal S128x512x196 .f32) (ix3 (batchOf t b) ch k) := by
  show V m c main_call0_v0 (((cfg0.win 0).blk t).view.emb (ix3 b ch k : S8x512x196.Idx)) = _
  exact congrArg (V m c main_call0_v0) (emb_in t b ch k)

/-- Each parameter window's block is its whole array, as launched. -/
theorem w1_block (c : Dev nD) (t : Fin cfg0.N) :
    (iblk m c 1 t : FVec Ideal S512x64 .f32) = m ((c : Thread nD τ).loc main_arg1) := by
  obtain ⟨-, -, -, e0, e1, -⟩ := idx_facts t
  refine funext fun (y : S512x64.Idx) => ?_
  show V m c main_arg1 (((cfg0.win 1).blk t).view.emb y) = _
  refine (congrFun (V_main_arg1 m c) _).trans (congrArg (m ((c : Thread nD τ).loc main_arg1)) (funext fun a => Fin.ext ?_))
  match a with
  | ⟨0, _⟩ => show win0_1.index t (0 : Fin 2) * 512 + 1 * (y 0).val = (y 0).val; rw [e0]; omega
  | ⟨1, _⟩ => show win0_1.index t (1 : Fin 2) * 64 + 1 * (y 1).val = (y 1).val; rw [e1]; omega

theorem b1_block (c : Dev nD) (t : Fin cfg0.N) :
    (iblk m c 2 t : FVec Ideal S1x64 .f32) = m ((c : Thread nD τ).loc main_arg2) := by
  obtain ⟨-, -, -, -, -, e0, e1, -⟩ := idx_facts t
  refine funext fun (y : S1x64.Idx) => ?_
  show V m c main_arg2 (((cfg0.win 2).blk t).view.emb y) = _
  refine (congrFun (V_main_arg2 m c) _).trans (congrArg (m ((c : Thread nD τ).loc main_arg2)) (funext fun a => Fin.ext ?_))
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

theorem w2_block (c : Dev nD) (t : Fin cfg0.N) :
    (iblk m c 3 t : FVec Ideal S64x512 .f32) = m ((c : Thread nD τ).loc main_arg3) := by
  obtain ⟨-, -, -, -, -, -, -, e0, e1, -⟩ := idx_facts t
  refine funext fun (y : S64x512.Idx) => ?_
  show V m c main_arg3 (((cfg0.win 3).blk t).view.emb y) = _
  refine (congrFun (V_main_arg3 m c) _).trans (congrArg (m ((c : Thread nD τ).loc main_arg3)) (funext fun a => Fin.ext ?_))
  match a with
  | ⟨0, _⟩ => show win0_3.index t (0 : Fin 2) * 64 + 1 * (y 0).val = (y 0).val; rw [e0]; omega
  | ⟨1, _⟩ => show win0_3.index t (1 : Fin 2) * 512 + 1 * (y 1).val = (y 1).val; rw [e1]; omega

theorem b2_block (c : Dev nD) (t : Fin cfg0.N) :
    (iblk m c 4 t : FVec Ideal S1x512 .f32) = m ((c : Thread nD τ).loc main_arg4) := by
  obtain ⟨-, -, -, -, -, -, -, -, -, e0, e1, -⟩ := idx_facts t
  refine funext fun (y : S1x512.Idx) => ?_
  show V m c main_arg4 (((cfg0.win 4).blk t).view.emb y) = _
  refine (congrFun (V_main_arg4 m c) _).trans (congrArg (m ((c : Thread nD τ).loc main_arg4)) (funext fun a => Fin.ext ?_))
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

end Blocks

section Result

variable (m : (ℓ : Loc nD τ sig) → Buf (Elt Ideal) ℓ)

/-! ## From the blocks to the array -/

/-- The result array of the region as one function: the region's first array scaled by its gates. -/
def regionResult (c : Dev nD) : FVec Ideal S128x512x196 .f32 :=
  scaled (V m c main_call0_v0) (m ((c : Thread nD τ).loc main_arg1)) (m ((c : Thread nD τ).loc main_arg2))
    (m ((c : Thread nD τ).loc main_arg3)) (m ((c : Thread nD τ).loc main_arg4))

/-- What point `t` writes back is its block of that function. -/
theorem written_eq (c : Dev nD) (t : Fin cfg0.N) :
    (dats m 0 c).flushed 5 t = ((cfg0.win 5).blk t).view.read (Elt Ideal) (regionResult m c) := by
  show (cfg0.win 5).cut (grid0.coords t) ((dats m 0 c).after 5 t) = _
  rw [after0_5]
  unfold out0_5
  rw [View.canon_unit_zero zero3]
  simp only [View.ld_unit_zero (S := S8x512x196) zero3, View.ld_unit_zero (S := S512x64) zero2,
    View.ld_unit_zero (S := S1x64) zero2, View.ld_unit_zero (S := S64x512) zero2, View.ld_unit_zero (S := S1x512) zero2]
  refine funext fun (y : S8x512x196.Idx) => ?_
  obtain ⟨b, ch, k, rfl⟩ : ∃ (b : Fin 8) (ch : Fin 512) (k : Fin 196), y = ix3 b ch k := ⟨y 0, y 1, y 2, eq_ix3 y⟩
  show k0_pay1 (F := Ideal) (iblk m c 0 t) (iblk m c 1 t) (iblk m c 2 t) (iblk m c 3 t) (iblk m c 4 t) (ix3 b ch k)
    = regionResult m c (((cfg0.win 5).blk t).view.emb (ix3 b ch k : S8x512x196.Idx))
  refine Eq.trans ?_ (congrArg (regionResult m c) (emb_out t b ch k)).symm
  rw [w1_block m c t, b1_block m c t, w2_block m c t, b2_block m c t]
  exact block_value (iblk m c 0 t) (m ((c : Thread nD τ).loc main_arg1)) (m ((c : Thread nD τ).loc main_arg2))
    (m ((c : Thread nD τ).loc main_arg3)) (m ((c : Thread nD τ).loc main_arg4)) (V m c main_call0_v0) b (batchOf t b)
    (fun ch' k' => in_block_apply m c t b ch' k') ch k

/-- An index of the array is in point `t`'s block iff each coordinate is in the block's range on its axis. -/
theorem mem_block (t : Fin cfg0.N) (i : S128x512x196.Idx) :
    i ∈ ((cfg0.win 5).blk t).view.set ↔ ∀ a : Fin 3, win0_5.index t a * S8x512x196.size a ≤ (i a).val
      ∧ (i a).val < win0_5.index t a * S8x512x196.size a + S8x512x196.size a := by
  show i ∈ ((View.whole main_call0_v1).slice (win0_5.rect t)).set ↔ _
  rw [View.set_slice_whole, Rect.mem_set_unit]
  exact Iff.rfl

/-- Batch element `r` lies in the block of point `r / 8`: the 16 blocks cover the array. -/
theorem covered (i : S128x512x196.Idx) :
    ∃ t : Fin cfg0.N, (cfg0.win 5).flush t = true ∧ i ∈ ((cfg0.win 5).blk t).view.set := by
  have h0 : (i 0).val < 128 := (i 0).isLt
  have h1 : (i 1).val < 512 := (i 1).isLt
  have h2 : (i 2).val < 196 := (i 2).isLt
  obtain ⟨t, ht⟩ : ∃ t : Fin cfg0.N, t.val = (i 0).val / 8 :=
    ⟨⟨(i 0).val / 8, Nat.lt_of_lt_of_eq (by omega : (i 0).val / 8 < 16) N_0.symm⟩, rfl⟩
  obtain ⟨-, -, -, -, -, -, -, -, -, -, -, e0, e1, e2⟩ := idx_facts t
  refine ⟨t, flush0_5 t, ?_⟩
  rw [mem_block]
  intro a
  match a with
  | ⟨0, _⟩ =>
    show win0_5.index t (0 : Fin 3) * 8 ≤ (i 0).val ∧ (i 0).val < win0_5.index t (0 : Fin 3) * 8 + 8
    rw [e0]; omega
  | ⟨1, _⟩ =>
    show win0_5.index t (1 : Fin 3) * 512 ≤ (i 1).val ∧ (i 1).val < win0_5.index t (1 : Fin 3) * 512 + 512
    rw [e1]; omega
  | ⟨2, _⟩ =>
    show win0_5.index t (2 : Fin 3) * 196 ≤ (i 2).val ∧ (i 2).val < win0_5.index t (2 : Fin 3) * 196 + 196
    rw [e2]; omega

/-- So the region's result array ends holding the function. -/
theorem array_eq (c : Dev nD) : (dats m 0 c).arrAt 5 cfg0.N = regionResult m c :=
  (dats m 0 c).arrAt_eq_of_cover 5 (regionResult m c) (fun t _ => written_eq m c t) covered

end Result

section Tail

variable (m : (ℓ : Loc nD τ sig) → Buf (Elt Ideal) ℓ)

/-! ## The reshape after the region, and the specification -/

/-- The program's result is the region's result array, reshaped. -/
theorem tail_eq (c : Dev nD) :
    (Pipeline.afterTail₀ cfgs (dats m) 0 (V0 m) [hostOps1] c main_v0 : FVec Ideal S128x512x14x14 .f32)
      = shapeCast S128x512x14x14 (regionResult m c) shapeCasts_S128x512x196_S128x512x14x14 := by
  have e : Pipeline.withArrays (cfgs 0).spec c (V0 m c) (fun w => (dats m 0 c).arrAt w (cfgs 0).N)
      (Proc.devRef .tc main_call0_v1) = regionResult m c :=
    (Pipeline.withArrays_arr spec0 launch0.win.arr_inj c _ _ 5).trans (array_eq m c)
  unfold Pipeline.afterTail₀
  show StableHlo.after hostOps1 _ (Proc.devRef .tc main_v0) = _
  after_results
  refine Eq.trans ?_ (congrArg (fun X => shapeCast S128x512x14x14 X shapeCasts_S128x512x196_S128x512x14x14) e)
  rfl

/-- Read at batch element `b`, channel `ch`, row `h`, column `w`, the reshaped array is the specification. -/
theorem result_eq (c : Dev nD) :
    (Pipeline.afterTail₀ cfgs (dats m) 0 (V0 m) [hostOps1] c main_v0 : FVec Ideal S128x512x14x14 .f32)
      = SE.G (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_eq]
  refine funext fun (i : S128x512x14x14.Idx) => ?_
  obtain ⟨b, ch, h, w, rfl⟩ : ∃ (b : Fin 128) (ch : Fin 512) (h w : Fin 14), i = ix4 b ch h w :=
    ⟨i 0, i 1, i 2, i 3, eq_ix4 i⟩
  rw [SE.G_apply]
  refine (shapeCast_apply (s := S128x512x196) (t := S128x512x14x14) _ _ _ (ix3 b ch (SE.flat h w)) ?_).trans ?_
  · rw [Shape.rowMajor_val_three, Shape.rowMajor_val_four]
    show (b.val * 512 + ch.val) * 196 + (h.val * 14 + w.val) = ((b.val * 512 + ch.val) * 14 + h.val) * 14 + w.val
    omega
  · show scaledAt (V m c main_call0_v0) _ _ _ _ b ch (SE.flat h w) = _
    unfold scaledAt SE.Gat
    rw [entry_apply m c b ch (SE.flat h w), SE.row_flat, SE.col_flat,
      show (fun c' k' => (V m c main_call0_v0 : FVec Ideal S128x512x196 .f32) (ix3 b c' k'))
        = SE.rowOf (m ((c : Thread nD τ).loc main_arg0)) b from
        funext fun c' => funext fun k' => entry_apply m c b c' k']

end Tail

/-- Every weakly fair execution of the kernel program ends with the result array at the specification of the
    argument arrays, and the arguments unchanged. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0)
          = SE.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.KVal

end
-- ==== Proof.RefBody.lean ====
/-
  The reference body's run on whole staging buffers.

  The body loads its five input buffers whole, computes, and stores one value over the whole output buffer: from input
  buffers holding x0 .. x4 and an output buffer holding anything, it ends with the inputs as they were and the output
  buffer holding the stored value of x0 .. x4.
-/
import proofs.«170886_g2000500431775840_pallasbulk_638_2_alg».proof.Proof.Gen.ReferenceIdeal.Launch
import proofs.«170886_g2000500431775840_pallasbulk_638_2_alg».proof.Proof.Gen.ReferenceIdeal.Skeleton
import proofs.«170886_g2000500431775840_pallasbulk_638_2_alg».proof.Proof.Gen.ReferenceIdeal.Points
import Idealize.ShloMosaic.Lib.Pipeline.FrameBody
import Idealize.ShloMosaic.Lib.Pipeline.Value
import Idealize.ShloMosaic.Lib.Tactic

set_option maxRecDepth 16384

noncomputable section

namespace Cert.ReferenceIdeal.RBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ReferenceIdeal Cert.ReferenceIdeal.Gen

variable {F : FTy → Type} [FloatOps F]

local notation "𝕄" => MT nD τ sig Unit (Elt F) ℕ (UR sig nD τ) ℕ

/-- The three zero offsets, however they are spelt. -/
theorem hz3 : (![0, 0, 0] : Fin 3 → Nat) = fun _ => 0 := by
  funext a; fin_cases a <;> rfl

/-- The two zero offsets. -/
theorem hz2 : (![0, 0] : Fin 2 → Nat) = fun _ => 0 := by
  funext a; fin_cases a <;> rfl

/-- The whole output buffer as a rectangle at offset zero. -/
abbrev rOut : Rect S5x196x512 := Rect.unit (s := S5x196x512) ![0, 0, 0] S5x196x512.size inb_S5x196x512_S5x196x512_0_0_0

/-- The one store is over the whole buffer, so every index lies under it. -/
theorem cover_out (p0 : Vec F S5x196x512 .f32) (y : S5x196x512.Idx) :
    ∃ pc ∈ ([⟨rOut, p0⟩] : List (View.Piece (Elt F) S5x196x512 .f32)), y ∈ pc.1.set :=
  ⟨_, List.mem_singleton_self _, View.mem_set_unit_zero (S := S5x196x512) hz3 inb_S5x196x512_S5x196x512_0_0_0 y⟩

set_option maxHeartbeats 1000000 in
/-- The body on whole staging memrefs, the inputs' at contents `x0 .. x4` and the output's at anything, runs to the
    continuation holding the inputs' as they were and the output's at the stored value of the inputs'. -/
theorem sound_kernel (c : Dev nD) (E : Set ℕ) (i : grid0.Coords) (arg1 : Memref sig .tc .vmem S5x196x512 .f32) (harg1 : arg1.IsWhole) (arg2 : Memref sig .tc .vmem S512x64 .f32) (harg2 : arg2.IsWhole) (arg3 : Memref sig .tc .vmem S1x64 .f32) (harg3 : arg3.IsWhole) (arg4 : Memref sig .tc .vmem S64x512 .f32) (harg4 : arg4.IsWhole) (arg5 : Memref sig .tc .vmem S1x512 .f32) (harg5 : arg5.IsWhole) (arg6 : Memref sig .tc .vmem S5x196x512 .f32) (harg6 : arg6.IsWhole)
    (x0 : Vec F S5x196x512 .f32) (x1 : Vec F S512x64 .f32) (x2 : Vec F S1x64 .f32) (x3 : Vec F S64x512 .f32) (x4 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay1 x0 x1 x2 x3 x4)) -∗ K ⟨⟩))
      ⊢ wp frame (wpE (defs₀ (F := F)) Variants.none c none) E (cc0__se_fused_kernel i arg1 harg1 arg2 harg2 arg3 harg3 arg4 harg4 arg5 harg5 arg6 harg6) K := by
  simp only [cc0__se_fused_kernel_eq_skeleton]; unfold cc0__se_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover_out _)).trans ?_
  rw [View.canon_unit_zero (S := S5x196x512) hz3]
  simp only [View.readAt_eq_ld]
  rw [View.ld_unit_zero (S := S5x196x512) hz3, View.ld_unit_zero (S := S512x64) hz2, View.ld_unit_zero (S := S1x64) hz2,
    View.ld_unit_zero (S := S64x512) hz2, View.ld_unit_zero (S := S1x512) hz2]

end Cert.ReferenceIdeal.RBody

end
-- ==== Proof.RefPayload.lean ====
/-
  The reference body's stored value, read at an index.

  On a block of 5 batch elements by 196 positions by 512 channels the body sums each channel over its positions,
  scales by the word for 1/196, applies the two affine layers (rectified, then logistic) across the channels of one
  batch element, and multiplies every entry by the gate of its batch element and channel.  Read at (b, k, c) the stored
  value is the gate of the block's batch element b at channel c times the entry there: it depends on the block's
  batch element b only.
-/
import proofs.«170886_g2000500431775840_pallasbulk_638_2_alg».proof.Proof.Gen.ReferenceIdeal.Skeleton
import proofs.«170886_g2000500431775840_pallasbulk_638_2_alg».proof.Proof.Spec
import proofs.«170886_g2000500431775840_pallasbulk_638_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RPay

open Idealize.ShloMosaic Idealize.ShloMosaic.ValueIdx Cert.ReferenceIdeal Cert.ReferenceIdeal.Gen

/-- The sum along the middle axis of a rank-3 array, read at (b, c): the sum over the middle coordinate. -/
theorem midSum {n0 n1 n2 : Nat} (src : FVec Ideal ⟨3, ![n0, n1, n2]⟩ .f32)
    (h : (⟨3, ![n0, n1, n2]⟩ : Shape).Reduces [1] ⟨2, ![n0, n2]⟩) (hφ : FKind.Formats .f32)
    (hacc : (0x00000000#32 : BitVec 32) = 0x00000000#32) (b : Fin n0) (c : Fin n2) :
    multiReduction (F := Ideal) .add [1] ⟨2, ![n0, n2]⟩ src 0x00000000#32 h hφ hacc (ix2 b c)
      = ∑ k : Fin n1, src (ix3 b k c) :=
  (Ideal.multiReduction_add_single src 0x00000000#32 h hφ hacc (ix2 b c)).trans
    (Finset.sum_congr rfl fun k _ => congrArg src (funext fun a => Fin.ext (by
      match a with
      | ⟨0, _⟩ => rfl
      | ⟨1, _⟩ => rfl
      | ⟨2, _⟩ => rfl)))

/-- A matrix product accumulated into the zero array, read at (p, q): the plain sum over the contracted index. -/
theorem matmulZero {R K C : Nat} (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ .f32) (r : FVec Ideal ⟨2, ![K, C]⟩ .f32) (p : Fin R) (q : Fin C) :
    matmul d none l r (constant (F := Ideal) ⟨2, ![R, C]⟩ .f32 0x00000000#32) (ix2 p q)
      = ∑ k : Fin K, l (ix2 p k) * r (ix2 k q) :=
  (Ideal.matmul_constant_zero_apply d none l r (ix2 p q)).trans (PlainDot.sum_eq d hlb hln hlc hrb hrn hrc l r p q)

/-- An [a, b] array viewed as [a, 1, b] reads, at (i, u, j), the operand at (i, j). -/
theorem rowCast {α : Type} {a b : Nat} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, 1, b] array spread along its middle axis to [a, n, b] reads, at (i, k, j), the operand at (i, 0, j). -/
theorem rowSpread {α : Type} {a b n : Nat} (v : (⟨3, ![a, 1, b]⟩ : Shape).Idx → α)
    (h : (⟨3, ![a, 1, b]⟩ : Shape).Broadcasts ⟨3, ![a, n, b]⟩) (i : Fin a) (k : Fin n) (j : Fin b) :
    broadcastTo ⟨3, ![a, n, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- The stored value at batch element `b`, position `k`, channel `c` of the block. -/
theorem pay_apply (x0 : FVec Ideal S5x196x512 .f32) (x1 : FVec Ideal S512x64 .f32) (x2 : FVec Ideal S1x64 .f32)
    (x3 : FVec Ideal S64x512 .f32) (x4 : FVec Ideal S1x512 .f32) (b : Fin 5) (k : Fin 196) (c : Fin 512) :
    k0_pay1 (F := Ideal) x0 x1 x2 x3 x4 (ix3 b k c)
      = SE.gate x1 x2 x3 x4 (fun c' k' => x0 (ix3 b k' c')) c * x0 (ix3 b k c) := by
  unfold k0_pay1
  dsimp only
  rw [shapeCast_self]
  -- the last product, then the gate spread along the positions and read through the unit-axis view
  refine (mulf_apply _ _ _).trans (congrArg (· * x0 (ix3 b k c)) ?_)
  refine (rowSpread _ _ b k c).trans ?_
  refine (rowCast _ _ b 0 c).trans ?_
  unfold SE.gate
  show FloatOps.logistic (F := Ideal) (φ := .f32) _ = _
  refine congrArg _ ?_
  -- the second affine layer
  refine (addf_apply _ _ _).trans ?_
  refine congrArg₂ (· + ·) ?_ (broadcastTo_1b_ab_apply x4 _ b c)
  refine (matmulZero _ rfl rfl rfl rfl rfl rfl _ x3 b c).trans
    (Finset.sum_congr rfl fun h _ => congrArg (· * x3 (ix2 h c)) ?_)
  -- the first affine layer, rectified
  unfold SE.hidden
  refine (maximumf_apply _ _ _).trans (congrArg₂ max ?_ rfl)
  refine (addf_apply _ _ _).trans (congrArg₂ (· + ·) ?_ (broadcastTo_1b_ab_apply x2 _ b h))
  refine (matmulZero _ rfl rfl rfl rfl rfl rfl _ x1 b h).trans
    (Finset.sum_congr rfl fun c' _ => congrArg (· * x1 (ix2 c' h)) ?_)
  -- the pooled value
  unfold SE.pooled
  exact (mulf_apply _ _ _).trans (congrArg₂ (· * ·) (midSum x0 _ _ _ b c') rfl)

end Cert.ReferenceIdeal.RPay

end
-- ==== Proof.RefFrame.lean ====
/-
  The reference program's run around its one region, at the extended reals.

  The region's grid has 26 points of 5 batch elements over an array of 128: the last point's block overhangs the array
  by two batch elements, so the fetch there fills only the first three batch elements of the staging buffer and the rest
  holds words nothing names; the write-back writes only the first three.  The body's stored value at a batch element
  depends on that batch element of its input block only, so on the part the write-back moves it is the stored value of
  the block filled out with zeros, whatever the buffer's tail held.
-/
import proofs.«170886_g2000500431775840_pallasbulk_638_2_alg».proof.Proof.Gen.ReferenceIdeal.Frame
import proofs.«170886_g2000500431775840_pallasbulk_638_2_alg».proof.Proof.RefBody
import proofs.«170886_g2000500431775840_pallasbulk_638_2_alg».proof.Proof.RefPayload

set_option maxRecDepth 16384

noncomputable section

namespace Cert.ReferenceIdeal.RFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.ReferenceIdeal Cert.ReferenceIdeal.Gen
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## The proof data -/

/-- The input's block at point `t` as the fetch reads it: its part inside the array (five batch elements, three at
    the last point). -/
def xblk (c : Dev nD) (t : Fin cfg0.N) : (win0_0.xblock (grid0.coords t)).Idx → Elt Ideal .f32 := iblk m c 0 t

/-- That block filled out to the staging buffer's five batch elements with zeros. -/
def xfull (c : Dev nD) (t : Fin cfg0.N) : S5x196x512.Idx → Elt Ideal .f32 :=
  win0_0.fill (grid0.coords t) (fun _ => (0 : EReal)) (xblk m c t)

/-- The proof data of the one pipeline on core `c`: the arrays as the region finds them; after the body at point `t`
    the input's buffer at its block (filled out with zeros past the array's end, where nothing is stated), the four
    resident operands' at their blocks, and the output's at the stored value of those. -/
def dats (_ : Fin 1) (c : Dev nD) : Dat τ (Elt Ideal) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => iblk m c 3 t
    | ⟨4, _⟩ => iblk m c 4 t
    | ⟨5, _⟩ => k0_pay1 (F := Ideal) (xfull m c t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = k0_pay1 (F := Ideal) (xfull m c t) (iblk m c 1 t) (iblk m c 2 t) (iblk m c 3 t) (iblk m c 4 t) := by dsimp only [dats]

/-! ## The body obligation -/

/-! ### What the body finds in each buffer -/

/-- The output's window is never fetched. -/
theorem fetch0_5 : ∀ t : Fin cfg0.N, (cfg0.win 5).fetch t = false :=
  (by decide +kernel : ∀ t : Fin grid0.N, win0_5.fetch t = false)

/-- The input's buffer, fetched at every point, holds the block on the part the fetch fills and `d` elsewhere. -/
theorem before0_0 (c : Dev nD) (t : Fin cfg0.N) (d) :
    (dats m 0 c).before 0 t d = win0_0.fill (grid0.coords t) d (xblk m c t) := by
  unfold Dat.before; rw [if_pos (fetch0_0 t)]
  unfold Dat.fetched Dat.blockOf xblk iblk; rw [A_eq]

/-- The four resident operands' buffers hold their blocks at every point. -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The output's buffer holds words nothing names: it is never fetched, and after the first point the previous
    point wrote it back. -/
theorem before0_5 (c : Dev nD) (t : Fin cfg0.N) (d) : (dats m 0 c).before 5 t d = d := by
  unfold Dat.before
  rw [if_neg (by rw [fetch0_5 t]; exact Bool.false_ne_true)]
  by_cases h : t.val = 0
  · rw [if_pos h]
  · rw [if_neg h]; exact if_pos (flush0_5 _)

/-! ### The stored value on the moved part does not see the buffer's tail -/

/-- Only the batch axis is ever cut: every point moves all 196 positions -/
theorem xsize0_1 : ∀ t : Fin grid0.N, win0_0.xsize (grid0.coords t) 1 = 196 := by decide +kernel
/-- and all 512 channels. -/
theorem xsize0_2 : ∀ t : Fin grid0.N, win0_0.xsize (grid0.coords t) 2 = 512 := by decide +kernel
/-- The output's window is cut as the input's is. -/
theorem xsize5_0 : ∀ t : Fin grid0.N, win0_5.xsize (grid0.coords t) 0 = win0_0.xsize (grid0.coords t) 0 := by decide +kernel

/-- On the part a transfer moves, a filled block does not depend on what it was filled out with. -/
theorem fill_moved {α : Type} (t : Fin cfg0.N) (d d' : S5x196x512.Idx → α) (g : (win0_0.xblock (grid0.coords t)).Idx → α)
    (j : S5x196x512.Idx) (h : win0_0.moved (grid0.coords t) j = true) :
    win0_0.fill (grid0.coords t) d g j = win0_0.fill (grid0.coords t) d' g j := by
  unfold Window.fill; rw [dif_pos h, dif_pos h]

/-- The stored value at a batch element reads that batch element of the input block only, over all positions and
    channels; a moved batch element's positions and channels are all moved.  So on the part the write-back moves, the
    stored value of a filled block is the same whatever filled it out. -/
theorem pay_cut_indep (t : Fin cfg0.N) (d d' : S5x196x512.Idx → EReal) (g : (win0_0.xblock (grid0.coords t)).Idx → EReal)
    (x1 : FVec Ideal S512x64 .f32) (x2 : FVec Ideal S1x64 .f32) (x3 : FVec Ideal S64x512 .f32) (x4 : FVec Ideal S1x512 .f32) :
    win0_5.cut (grid0.coords t) (k0_pay1 (F := Ideal) (win0_0.fill (grid0.coords t) d g) x1 x2 x3 x4)
      = win0_5.cut (grid0.coords t) (k0_pay1 (F := Ideal) (win0_0.fill (grid0.coords t) d' g) x1 x2 x3 x4) := by
  funext j
  show k0_pay1 (F := Ideal) (win0_0.fill (grid0.coords t) d g) x1 x2 x3 x4 (win0_5.xinj (grid0.coords t) j)
    = k0_pay1 (F := Ideal) (win0_0.fill (grid0.coords t) d' g) x1 x2 x3 x4 (win0_5.xinj (grid0.coords t) j)
  -- the index by its coordinates: batch element, position, channel
  obtain ⟨b, k, c0, hj, hb⟩ : ∃ (b : Fin 5) (k : Fin 196) (c0 : Fin 512),
      win0_5.xinj (grid0.coords t) j = ix3 b k c0 ∧ b.val = (j 0).val :=
    ⟨_, _, _, eq_ix3 _, rfl⟩
  -- every position and channel of that batch element is moved
  have hm : ∀ (k' : Fin 196) (c' : Fin 512), win0_0.moved (grid0.coords t) (ix3 b k' c') = true := by
    intro k' c'
    rw [Window.moved_iff]
    intro a
    match a with
    | ⟨0, _⟩ =>
      show b.val < win0_0.xsize (grid0.coords t) 0
      rw [hb, ← xsize5_0 t]; exact (j 0).isLt
    | ⟨1, _⟩ =>
      show k'.val < win0_0.xsize (grid0.coords t) 1
      rw [xsize0_1 t]; exact k'.isLt
    | ⟨2, _⟩ =>
      show c'.val < win0_0.xsize (grid0.coords t) 2
      rw [xsize0_2 t]; exact c'.isLt
  rw [hj]
  refine (RPay.pay_apply _ x1 x2 x3 x4 b k c0).trans (Eq.trans ?_ (RPay.pay_apply _ x1 x2 x3 x4 b k c0).symm)
  have hs : (fun (c' : Fin 512) (k' : Fin 196) => win0_0.fill (grid0.coords t) d g (ix3 b k' c'))
      = fun (c' : Fin 512) (k' : Fin 196) => win0_0.fill (grid0.coords t) d' g (ix3 b k' c') :=
    funext fun c' => funext fun k' => fill_moved t d d' g _ (hm k' c')
  rw [hs, fill_moved t d d' g (ix3 b k c0) (hm k c0)]

/-! ### The body at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the two clipped windows' buffers stated on the part their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare
        (win0_5.fill (grid0.coords t) d (win0_5.cut (grid0.coords t) ((dats m 0 c).after 5 t)))))

/-- The body at any point: the input's buffer holds its block filled out with whatever the buffer's tail held, the
    resident operands' theirs; the body's run returns the inputs as they were and the output's buffer at the stored
    value of those, which on the moved part is the stored value of the block filled out with zeros. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (RBody.sound_kernel c Set.univ (grid0.coords t) _ _ _ _ _ _ _ _ _ _ _ _
    (win0_0.fill (grid0.coords t) d0 (xblk m c t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [show win0_0.cut (grid0.coords t) (xfull m c t) = xblk m c t from win0_0.cut_fill _ _ _]
    iexact H0
  isplitl [H1]; · iexact H1
  isplitl [H2]; · iexact H2
  isplitl [H3]; · iexact H3
  isplitl [H4]; · iexact H4
  iexists (k0_pay1 (F := Ideal) (win0_0.fill (grid0.coords t) d0 (xblk m c t)) (iblk m c 1 t) (iblk m c 2 t) (iblk m c 3 t) (iblk m c 4 t))
  have hcut : win0_5.cut (grid0.coords t)
        (k0_pay1 (F := Ideal) (win0_0.fill (grid0.coords t) d0 (xblk m c t)) (iblk m c 1 t) (iblk m c 2 t) (iblk m c 3 t) (iblk m c 4 t))
      = win0_5.cut (grid0.coords t)
        (k0_pay1 (F := Ideal) (xfull m c t) (iblk m c 1 t) (iblk m c 2 t) (iblk m c 3 t) (iblk m c 4 t)) :=
    pay_cut_indep t d0 (fun _ => (0 : EReal)) (xblk m c t) (iblk m c 1 t) (iblk m c 2 t) (iblk m c 3 t) (iblk m c 4 t)
  rw [win0_5.fill_congr_cut (grid0.coords t) hcut]
  iexact H5

/-- The library's body obligation at every point, each clipped window stated on the part its transfers move. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the program terminates, every array of the pipeline ending at what the library
    computes from the proof data and every other buffer as the lines after the region leave it. -/
theorem run_main : θ_run (defs (F := Ideal)) (onTc (τ := τ) (main (F := Ideal))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its argument arrays end unchanged. -/
theorem frame : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.ReferenceIdeal.RFrame

end
-- ==== Proof.RefValue.lean ====
/-
  The reference program's result array.

  The program moves the channels last (batch by 14 by 14 by channel), flattens the positions, runs the body on 26
  blocks of 5 batch elements (the last clipped to 3), unflattens and moves the channels back.  Each block written back
  is its block of one whole-array function, and the blocks cover the array, so after the last write-back the array is
  that function; moved back it is the specification.
-/
import proofs.«170886_g2000500431775840_pallasbulk_638_2_alg».proof.Proof.RefFrame
import Idealize.ShloMosaic.Lib.StableHlo.Run

set_option maxRecDepth 16384

noncomputable section

namespace Cert.ReferenceIdeal.RVal

open Idealize.ShloMosaic Idealize.ShloMosaic.TcCoe Idealize.ShloMosaic.ValueIdx Idealize.SL.Sem
open Idealize.ShloMosaic.Pipeline (Dat Cfg Window)
open Cert.ReferenceIdeal Cert.ReferenceIdeal.Gen Cert.ReferenceIdeal.RFrame

variable (m : (ℓ : Loc nD τ sig) → Buf (Elt Ideal) ℓ) (ρ : Dev nD → PrngReg)

/-! ## The region's input array -/

/-- The input argument on core `c`. -/
abbrev xarg (c : Dev nD) : FVec Ideal S128x512x14x14 .f32 := m ((c.tc : Thread nD τ).loc main_arg0)

/-- The region's input array as it is entered: the argument with channels moved last and positions flattened. -/
abbrev xt (c : Dev nD) : FVec Ideal S128x196x512 .f32 := V m c main_call0_v1

theorem xt_eq (c : Dev nD) : xt m c
    = shapeCast S128x196x512 (transpose S128x14x14x512 [0, 2, 3, 1] (xarg m c) transposes_S128x512x14x14_S128x14x14x512_0_2_3_1) shapeCasts_S128x14x14x512_S128x196x512 := by
  show StableHlo.after hostOps0 (fun b => m (c, b)) (Proc.devRef .tc main_call0_v1) = _
  after_results
  rfl

/-- Its entry at batch element `b`, position `k`, channel `ch` is the argument's at `(b, ch, row k, col k)`. -/
theorem xt_apply (c : Dev nD) (b : Fin 128) (k : Fin 196) (ch : Fin 512) :
    xt m c (ix3 b k ch) = xarg m c (ix4 b ch (SE.row k) (SE.col k)) := by
  rw [xt_eq]
  refine (shapeCast_apply _ _ (ix3 b k ch) (ix4 b (SE.row k) (SE.col k) ch) ?_).trans ?_
  · rw [Shape.rowMajor_val_four, Shape.rowMajor_val_three]
    show ((b.val * 14 + (SE.row k).val) * 14 + (SE.col k).val) * 512 + ch.val = (b.val * 196 + k.val) * 512 + ch.val
    have := SE.row_col k
    omega
  · exact transpose_apply _ _ _ _ (ix4 b ch (SE.row k) (SE.col k)) fun a =>
      match a with | ⟨0, _⟩ => rfl | ⟨1, _⟩ => rfl | ⟨2, _⟩ => rfl | ⟨3, _⟩ => rfl

/-! ## The grid -/

/-- The input's and the output's windows move together: at point `t` the block starts at batch element `5 t` and
    spans every position and channel; its batch extent is 5, or what is left of the array's 128 at the last point. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_0.xsize (grid0.coords t) (0 : Fin 3) = min 5 (128 - 5 * t.val)
    ∧ win0_0.xsize (grid0.coords t) (1 : Fin 3) = 196 ∧ win0_0.xsize (grid0.coords t) (2 : Fin 3) = 512
    ∧ win0_5.xsize (grid0.coords t) (0 : Fin 3) = min 5 (128 - 5 * t.val)
    ∧ win0_5.xsize (grid0.coords t) (1 : Fin 3) = 196 ∧ win0_5.xsize (grid0.coords t) (2 : Fin 3) = 512 :=
  (by decide +kernel : ∀ t : Fin grid0.N, _)

/-! ## The blocks -/

/-- The four resident operands are staged whole: their block index is zero at every point. -/
theorem res_facts : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem iblk1_eq (c : Dev nD) (t : Fin cfg0.N) :
    (iblk m c 1 t : S512x64.Idx → EReal) = m ((c.tc : Thread nD τ).loc main_arg1) := by
  obtain ⟨e0, e1, -⟩ := res_facts t
  funext j
  refine (congrArg (V m c main_arg1) ?_).trans (congrFun (V_main_arg1 m c) j)
  funext a; apply Fin.ext
  match a with
  | ⟨0, _⟩ => show win0_1.index t (0 : Fin 2) * 512 + 1 * (j 0).val = (j 0).val; omega
  | ⟨1, _⟩ => show win0_1.index t (1 : Fin 2) * 64 + 1 * (j 1).val = (j 1).val; omega

theorem iblk2_eq (c : Dev nD) (t : Fin cfg0.N) :
    (iblk m c 2 t : S1x64.Idx → EReal) = m ((c.tc : Thread nD τ).loc main_arg2) := by
  obtain ⟨-, -, e0, e1, -⟩ := res_facts t
  funext j
  refine (congrArg (V m c main_arg2) ?_).trans (congrFun (V_main_arg2 m c) j)
  funext a; apply Fin.ext
  match a with
  | ⟨0, _⟩ => show win0_2.index t (0 : Fin 2) * 1 + 1 * (j 0).val = (j 0).val; omega
  | ⟨1, _⟩ => show win0_2.index t (1 : Fin 2) * 64 + 1 * (j 1).val = (j 1).val; omega

theorem iblk3_eq (c : Dev nD) (t : Fin cfg0.N) :
    (iblk m c 3 t : S64x512.Idx → EReal) = m ((c.tc : Thread nD τ).loc main_arg3) := by
  obtain ⟨-, -, -, -, e0, e1, -⟩ := res_facts t
  funext j
  refine (congrArg (V m c main_arg3) ?_).trans (congrFun (V_main_arg3 m c) j)
  funext a; apply Fin.ext
  match a with
  | ⟨0, _⟩ => show win0_3.index t (0 : Fin 2) * 64 + 1 * (j 0).val = (j 0).val; omega
  | ⟨1, _⟩ => show win0_3.index t (1 : Fin 2) * 512 + 1 * (j 1).val = (j 1).val; omega

theorem iblk4_eq (c : Dev nD) (t : Fin cfg0.N) :
    (iblk m c 4 t : S1x512.Idx → EReal) = m ((c.tc : Thread nD τ).loc main_arg4) := by
  obtain ⟨-, -, -, -, -, -, e0, e1⟩ := res_facts t
  funext j
  refine (congrArg (V m c main_arg4) ?_).trans (congrFun (V_main_arg4 m c) j)
  funext a; apply Fin.ext
  match a with
  | ⟨0, _⟩ => show win0_4.index t (0 : Fin 2) * 1 + 1 * (j 0).val = (j 0).val; omega
  | ⟨1, _⟩ => show win0_4.index t (1 : Fin 2) * 512 + 1 * (j 1).val = (j 1).val; omega

/-- The input's block at point `t`, filled out: at a batch element of the block that lies inside the array it is the
    region's input array at batch element `5 t + b`. -/
theorem xfull_apply (c : Dev nD) (t : Fin cfg0.N) (b : Fin 5) (hb : t.val * 5 + b.val < 128) (k : Fin 196) (ch : Fin 512) :
    xfull m c t (ix3 b k ch) = xt m c (ix3 (⟨t.val * 5 + b.val, hb⟩ : Fin 128) k ch) := by
  obtain ⟨e0, e1, e2, -, -, -, s0, s1, s2, -⟩ := idx_facts t
  have hmv : win0_0.moved (grid0.coords t) (ix3 b k ch) = true := (win0_0.moved_iff _ _).mpr fun a => by
    match a with
    | ⟨0, _⟩ => show b.val < win0_0.xsize (grid0.coords t) (0 : Fin 3); have := b.isLt; omega
    | ⟨1, _⟩ => show k.val < win0_0.xsize (grid0.coords t) (1 : Fin 3); have := k.isLt; omega
    | ⟨2, _⟩ => show ch.val < win0_0.xsize (grid0.coords t) (2 : Fin 3); have := ch.isLt; omega
  unfold xfull Window.fill
  rw [dif_pos hmv]
  show V m c main_call0_v1 (((cfg0.win 0).blk t).view.emb _) = _
  refine congrArg (V m c main_call0_v1) ?_
  funext a; apply Fin.ext
  match a with
  | ⟨0, _⟩ => show win0_0.index t (0 : Fin 3) * 5 + 1 * b.val = t.val * 5 + b.val; omega
  | ⟨1, _⟩ => show win0_0.index t (1 : Fin 3) * 196 + 1 * k.val = k.val; omega
  | ⟨2, _⟩ => show win0_0.index t (2 : Fin 3) * 512 + 1 * ch.val = ch.val; omega

/-! ## The region's output array as one function -/

/-- The gated entry at batch element `b`, position `k`, channel `ch` of the region's input array. -/
def Yat (c : Dev nD) (b : Fin 128) (k : Fin 196) (ch : Fin 512) : EReal :=
  SE.gate (m ((c.tc : Thread nD τ).loc main_arg1)) (m ((c.tc : Thread nD τ).loc main_arg2))
      (m ((c.tc : Thread nD τ).loc main_arg3)) (m ((c.tc : Thread nD τ).loc main_arg4))
      (fun c' k' => xt m c (ix3 b k' c')) ch
    * xt m c (ix3 b k ch)

/-- The whole array of gated entries. -/
def Y3 (c : Dev nD) : FVec Ideal S128x196x512 .f32 := fun i => Yat m c (i 0) (i 1) (i 2)

/-- What point `t` writes back is its block of that array. -/
theorem flushed_eq (c : Dev nD) (t : Fin cfg0.N) :
    (dats m 0 c).flushed 5 t = ((cfg0.win 5).blk t).view.read (Elt Ideal) (Y3 m c) := by
  show (cfg0.win 5).cut (grid0.coords t) ((dats m 0 c).after 5 t) = _
  rw [after0_5]
  obtain ⟨-, -, -, f0, f1, f2, -, -, -, u0, u1, u2⟩ := idx_facts t
  funext j
  have hj0 : (j 0).val < min 5 (128 - 5 * t.val) := u0 ▸ (j 0).isLt
  have hj1 : (j 1).val < 196 := u1 ▸ (j 1).isLt
  have hj2 : (j 2).val < 512 := u2 ▸ (j 2).isLt
  have hb5 : (j 0).val < 5 := by omega
  have hb : t.val * 5 + (j 0).val < 128 := by omega
  have hx : (cfg0.win 5).xinj (grid0.coords t) j = ix3 (⟨(j 0).val, hb5⟩ : Fin 5) (⟨(j 1).val, hj1⟩ : Fin 196) (⟨(j 2).val, hj2⟩ : Fin 512) := by
    funext a
    match a with
    | ⟨0, _⟩ => rfl
    | ⟨1, _⟩ => rfl
    | ⟨2, _⟩ => rfl
  have he : ((cfg0.win 5).blk t).view.emb j = ix3 (⟨t.val * 5 + (j 0).val, hb⟩ : Fin 128) (⟨(j 1).val, hj1⟩ : Fin 196) (⟨(j 2).val, hj2⟩ : Fin 512) := by
    funext a; apply Fin.ext
    match a with
    | ⟨0, _⟩ => show win0_5.index t (0 : Fin 3) * 5 + 1 * (j 0).val = t.val * 5 + (j 0).val; omega
    | ⟨1, _⟩ => show win0_5.index t (1 : Fin 3) * 196 + 1 * (j 1).val = (j 1).val; omega
    | ⟨2, _⟩ => show win0_5.index t (2 : Fin 3) * 512 + 1 * (j 2).val = (j 2).val; omega
  show k0_pay1 (F := Ideal) (xfull m c t) (iblk m c 1 t) (iblk m c 2 t) (iblk m c 3 t) (iblk m c 4 t) ((cfg0.win 5).xinj (grid0.coords t) j)
    = Y3 m c (((cfg0.win 5).blk t).view.emb j)
  rw [hx, he]
  refine (RPay.pay_apply (xfull m c t) (iblk m c 1 t) (iblk m c 2 t) (iblk m c 3 t) (iblk m c 4 t) _ _ _).trans ?_
  rw [iblk1_eq, iblk2_eq, iblk3_eq, iblk4_eq]
  show _ = Yat m c _ _ _
  unfold Yat
  rw [xfull_apply m c t _ hb]
  refine congrArg (· * _) (congrArg (fun s => SE.gate _ _ _ _ s _) ?_)
  funext c' k'
  exact xfull_apply m c t _ hb k' c'

/-! ## The blocks cover the array -/

/-- An index of the array is in point `t`'s block iff each coordinate lies in the block's range on its axis, cut at
    the array's end. -/
theorem mem_blk (t : Fin cfg0.N) (i : S128x196x512.Idx) :
    i ∈ ((cfg0.win 5).blk t).view.set ↔ ∀ a : Fin 3, win0_5.index t a * S5x196x512.size a ≤ (i a).val
      ∧ (i a).val < win0_5.index t a * S5x196x512.size a + win0_5.xsize (grid0.coords t) a := by
  show i ∈ ((View.whole main_call0_v2).slice (win0_5.rect t)).set ↔ _
  rw [View.set_slice_whole, Rect.mem_set_unit]
  exact Iff.rfl

/-- Batch element `r` lies in the block of point `r / 5`. -/
theorem cover (i : S128x196x512.Idx) :
    ∃ t : Fin cfg0.N, (cfg0.win 5).flush t = true ∧ i ∈ ((cfg0.win 5).blk t).view.set := by
  have hi0 : (i 0).val < 128 := (i 0).isLt
  have hi1 : (i 1).val < 196 := (i 1).isLt
  have hi2 : (i 2).val < 512 := (i 2).isLt
  have hN : (i 0).val / 5 < cfg0.N := by show _ < grid0.N; rw [N_0]; omega
  refine ⟨⟨(i 0).val / 5, hN⟩, flush0_5 _, ?_⟩
  rw [mem_blk]
  obtain ⟨-, -, -, f0, f1, f2, -, -, -, u0, u1, u2⟩ := idx_facts ⟨(i 0).val / 5, hN⟩
  intro a
  match a with
  | ⟨0, _⟩ =>
    show win0_5.index ⟨(i 0).val / 5, hN⟩ (0 : Fin 3) * 5 ≤ (i 0).val
      ∧ (i 0).val < win0_5.index ⟨(i 0).val / 5, hN⟩ (0 : Fin 3) * 5 + win0_5.xsize (grid0.coords ⟨(i 0).val / 5, hN⟩) (0 : Fin 3)
    rw [f0, u0]; show (i 0).val / 5 * 5 ≤ (i 0).val ∧ (i 0).val < (i 0).val / 5 * 5 + min 5 (128 - 5 * ((i 0).val / 5)); omega
  | ⟨1, _⟩ =>
    show win0_5.index ⟨(i 0).val / 5, hN⟩ (1 : Fin 3) * 196 ≤ (i 1).val
      ∧ (i 1).val < win0_5.index ⟨(i 0).val / 5, hN⟩ (1 : Fin 3) * 196 + win0_5.xsize (grid0.coords ⟨(i 0).val / 5, hN⟩) (1 : Fin 3)
    rw [f1, u1]; omega
  | ⟨2, _⟩ =>
    show win0_5.index ⟨(i 0).val / 5, hN⟩ (2 : Fin 3) * 512 ≤ (i 2).val
      ∧ (i 2).val < win0_5.index ⟨(i 0).val / 5, hN⟩ (2 : Fin 3) * 512 + win0_5.xsize (grid0.coords ⟨(i 0).val / 5, hN⟩) (2 : Fin 3)
    rw [f2, u2]; omega

/-- After the last write-back the region's output array is the array of gated entries. -/
theorem final (c : Dev nD) : (dats m 0 c).arrAt 5 cfg0.N = Y3 m c :=
  (dats m 0 c).arrAt_eq_of_cover 5 (Y3 m c) (fun t _ => flushed_eq m c t) cover

/-! ## The lines after the region -/

/-- The result buffer after the program's last two lines: the region's output array with positions unflattened and
    channels moved back. -/
theorem tail_eq (c : Dev nD) : (Pipeline.afterTail₀ cfgs (dats m) 0 (V0 m) [hostOps1] c main_v0 : S128x512x14x14.Idx → EReal)
    = transpose S128x512x14x14 [0, 3, 1, 2] (shapeCast S128x14x14x512 (Y3 m c) shapeCasts_S128x196x512_S128x14x14x512) transposes_S128x14x14x512_S128x512x14x14_0_3_1_2 := by
  have hw : Pipeline.withArrays (cfgs 0).spec c (V0 m c) (fun w => (dats m 0 c).arrAt w (cfgs 0).N) (Proc.devRef .tc main_call0_v2) = Y3 m c :=
    (Pipeline.withArrays_arr spec0 launch0.win.arr_inj c _ _ 5).trans (final m c)
  unfold Pipeline.afterTail₀
  show StableHlo.after hostOps1 _ (Proc.devRef .tc main_v0) = _
  after_results
  refine Eq.trans ?_ (congrArg (fun y => transpose S128x512x14x14 [0, 3, 1, 2] (shapeCast S128x14x14x512 y shapeCasts_S128x196x512_S128x14x14x512) transposes_S128x14x14x512_S128x512x14x14_0_3_1_2) hw)
  rfl

/-- The result at batch element `b`, channel `ch`, row `h`, column `w` is the specification's value there. -/
theorem tail_apply (c : Dev nD) (b : Fin 128) (ch : Fin 512) (h w : Fin 14) :
    (Pipeline.afterTail₀ cfgs (dats m) 0 (V0 m) [hostOps1] c main_v0 : S128x512x14x14.Idx → EReal) (ix4 b ch h w)
      = SE.Gat (m ((c.tc : Thread nD τ).loc main_arg1)) (m ((c.tc : Thread nD τ).loc main_arg2))
          (m ((c.tc : Thread nD τ).loc main_arg3)) (m ((c.tc : Thread nD τ).loc main_arg4)) (xarg m c) b ch h w := by
  rw [tail_eq]
  refine (transpose_apply _ _ _ (ix4 b ch h w) (ix4 b h w ch) fun a =>
    match a with | ⟨0, _⟩ => rfl | ⟨1, _⟩ => rfl | ⟨2, _⟩ => rfl | ⟨3, _⟩ => rfl).trans ?_
  refine (shapeCast_apply _ _ (ix4 b h w ch) (ix3 b (SE.flat h w) ch) ?_).trans ?_
  · rw [Shape.rowMajor_val_three, Shape.rowMajor_val_four]
    show (b.val * 196 + (h.val * 14 + w.val)) * 512 + ch.val = ((b.val * 14 + h.val) * 14 + w.val) * 512 + ch.val
    omega
  · show Yat m c b (SE.flat h w) ch = _
    unfold Yat SE.Gat
    rw [xt_apply, SE.row_flat, SE.col_flat]
    refine congrArg (· * _) (congrArg (fun s => SE.gate _ _ _ _ s _) ?_)
    funext c' k'
    exact xt_apply m c b k' c'

/-- The result buffer after the run is the specification of the argument arrays. -/
theorem result_eq (c : Dev nD) : (Pipeline.afterTail₀ cfgs (dats m) 0 (V0 m) [hostOps1] c main_v0 : S128x512x14x14.Idx → EReal)
    = SE.G (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  funext i
  rw [eq_ix4 i]
  exact tail_apply m c (i 0) (i 1) (i 2) (i 3)

/-! ## The run -/

/-- Every weakly fair execution of the reference program ends with the result array at the specification of the
    argument arrays, and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v0)
          = SE.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run defs _ _).mono (fun r h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.ReferenceIdeal.RVal

end
-- ==== Proof.lean ====
/-
  The certificate of the squeeze-and-excite kernel against its reference.

  Both programs scale the input, entry by entry, by the gate of the entry's batch element and channel: the logistic
  function of a two-layer map of the channel means.  The kernel keeps channels ahead of positions and works on blocks of
  8 batch elements; the reference moves channels last and works on blocks of 5, the last clipped at the array's end.
  Each side's result array is shown to be the one specification (Proof/Spec.lean) of the argument arrays, so from
  memories that agree on the arguments the two results are equal entry by entry.
-/
import proofs.«170886_g2000500431775840_pallasbulk_638_2_alg».proof.Defs
import proofs.«170886_g2000500431775840_pallasbulk_638_2_alg».proof.Proof.Gen.Kernel.Frame
import proofs.«170886_g2000500431775840_pallasbulk_638_2_alg».proof.Proof.Gen.KernelIdeal.Frame
import proofs.«170886_g2000500431775840_pallasbulk_638_2_alg».proof.Proof.Gen.Pre_finite_inputs
import proofs.«170886_g2000500431775840_pallasbulk_638_2_alg».proof.Proof.KernelValue
import proofs.«170886_g2000500431775840_pallasbulk_638_2_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.RFrame.frame m ρ

/-- From memories that agree on the arguments both programs end with the specification of those arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => SE.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), Cert.KernelIdeal.KVal.run m ρ, ?_⟩
  refine (θ_run Cert.ReferenceIdeal.defs _ _).mono (fun r h c => ⟨?_, (h c).2⟩) (Cert.ReferenceIdeal.RVal.run m' ρ')
  rw [(h c).1, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
